-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x4096x512 .f32) (main_arg1 : FVec F S4x4096x4096 .f32) (main_arg2 : FVec F S512x512 .f32) (main_arg3 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x512 : Shape := ⟨2, ![1, 512]⟩
abbrev S1x4096x512 : Shape := ⟨3, ![1, 4096, 512]⟩
abbrev S1x512x2048 : Shape := ⟨3, ![1, 512, 2048]⟩
abbrev S1x512x512 : Shape := ⟨3, ![1, 512, 512]⟩
abbrev S4096x512 : Shape := ⟨2, ![4096, 512]⟩
abbrev S512x2048 : Shape := ⟨2, ![512, 2048]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S4x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S512x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S4096x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512_S1x512 : S512.ShapeCasts S1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S4096x512_S2048x512_0_0 : ∀ a, (![0, 0] : Fin 2 → Nat) a + S2048x512.size a ≤ S4096x512.size a
  h_S2048x512 : 0 < S2048x512.numel
  inb_S4096x512_S2048x512_2048_0 : ∀ a, (![2048, 0] : Fin 2 → Nat) a + S2048x512.size a ≤ S4096x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S4096x512_S512x512_S4096x512_1_0_0_1_n_n_wf : DotDims.WF S4096x512 S512x512 S4096x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x4096x512.size a
  hwx0_0 : ∀ i : grid0.Coords, EltTy.bits .f32 = 32 ∨ (Rect.block (s := S4x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x4096x4096.size a
  hwx0_1 : ∀ i : grid0.Coords, EltTy.bits .f32 = 32 ∨ (Rect.block (s := S4x4096x4096) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x4096.size a
  hwx0_2 : ∀ i : grid0.Coords, EltTy.bits .f32 = 32 ∨ (Rect.block (s := S4x4096x4096) S1x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S4x4096x512.size a
  hwx0_5 : ∀ i : grid0.Coords, EltTy.bits .f32 = 32 ∨ (Rect.block (s := S4x4096x512) S1x512x512.size (cc0_transform_5 i) (hinb0_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S4x4096x4096 : Shape := ⟨3, ![4, 4096, 4096]⟩
abbrev S512x512 : Shape := ⟨2, ![512, 512]⟩
abbrev S512 : Shape := ⟨1, ![512]⟩
abbrev S1x1x512 : Shape := ⟨3, ![1, 1, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x4096, .f32⟩
  | .hbm, ⟨2, _⟩ => ⟨S512x512, .f32⟩
  | .hbm, ⟨3, _⟩ => ⟨S512, .f32⟩
  | .hbm, ⟨4, _⟩ => ⟨S4x4096x512, .f32⟩
  | .hbm, ⟨5, _⟩ => ⟨S4x4096x512, .f32⟩
  | .hbm, ⟨6, _⟩ => ⟨S1x1x512, .f32⟩
  | .hbm, ⟨7, _⟩ => ⟨S4x4096x512, .f32⟩
  | .hbm, ⟨8, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  dot_S4x4096x512_S512x512_S4x4096x512_2_0_01_1_n_n_wf : DotDims.WF S4x4096x512 S512x512 S4x4096x512 [2] [0] [0, 1] [1] [] []
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KnBase.lean ====
/-
  The frame layer of the kernel, shared by everything stated about its one pipeline: the arrays as the
  region finds them (after the host reshape of the bias to a row), each window's block at a grid point, the one
  branch of the body in closed form over the 4 × 8 grid (the support matrix is recomputed exactly at the first
  row tile of each batch, the points ≡ 0 mod 8), and what each input window's staging buffer holds when the body
  runs. The adjacency array is handed to the kernel twice (its left and right column halves are two windows on
  one array), so the two windows hold complementary halves of its share.
-/
import proofs.«126129_g71863392796808_cont_9to1_m_899_6_alg».proof.Proof.Gen.Kernel.Launch
import proofs.«126129_g71863392796808_cont_9to1_m_899_6_alg».proof.Proof.Gen.Kernel.Skeleton
import proofs.«126129_g71863392796808_cont_9to1_m_899_6_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- A core's buffers when the region is entered: the launch contents after the one host operation before it
    (the bias reshaped to a 1 × 512 row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: each argument array is found as launched. -/
theorem V_arg (c : Dev nD) (b : Ref sig .tc) (hb : Proc.devRef (τ := τ) .tc b ≠ Proc.devRef (τ := τ) .tc main_v0) :
    V m c b = m ((c : Thread nD τ).loc b) :=
  StableHlo.after_of_forall_not_mem (b := Proc.devRef (τ := τ) .tc b) _ _ (List.forall_iff_forall_mem.mp (by
    simp only [hostOps0, List.Forall, StableHlo.reshape_writes, Finset.mem_singleton]
    exact hb))

theorem V_main_arg0 (c : Dev nD) : V m c main_arg0 = m ((c : Thread nD τ).loc main_arg0) :=
  V_arg m c main_arg0 (StableHlo.devRef_ne_of_ne (by decide))
theorem V_main_arg1 (c : Dev nD) : V m c main_arg1 = m ((c : Thread nD τ).loc main_arg1) :=
  V_arg m c main_arg1 (StableHlo.devRef_ne_of_ne (by decide))
theorem V_main_arg2 (c : Dev nD) : V m c main_arg2 = m ((c : Thread nD τ).loc main_arg2) :=
  V_arg m c main_arg2 (StableHlo.devRef_ne_of_ne (by decide))
theorem V_main_arg3 (c : Dev nD) : V m c main_arg3 = m ((c : Thread nD τ).loc main_arg3) :=
  V_arg m c main_arg3 (StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's staging buffer holds its block whenever the body runs, fetched at that point or not (an
    unfetched window's block index has not moved), for any proof data over these arrays whose body leaves the
    block in place. One statement per input window, each at its literal number. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The branch condition from the grid coordinates: the row-tile coordinate is zero. -/
abbrev cond0 (i : grid0.Coords) : Prop := (Scalar.cmpi .ne (Scalar.extui (Scalar.cmpi .eq (BitVec.ofNat 32 (i 1).val) 0#32)) 0#32) = 1#1
/-- It holds at the first row tile of each batch. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point, and the scratch -/

abbrev ms0 (t : Fin cfg0.N) : Memref sig .tc .vmem S1x4096x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The support scratch: a whole scoped buffer of the kernel's own, carried between grid points. -/
abbrev scM : Memref sig .tc .vmem S4096x512 .bf16 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The shares of the input arrays -/

/-- The adjacency array is read through two windows: each holds one half of its share; every other input array is
    held whole by its one window. -/
def shareOf : Fin 6 → PosShare TreeShare := fun w => if w.val = 1 then fullShare.left else if w.val = 2 then fullShare.right else fullShare

end Cert.Kernel.Frm

end
-- ==== Proof.KnBody.lean ====
/-
  The kernel body as two triples, one per value of its branch. At the first row tile of a batch the body
  computes the support matrix x·W of the batch from the x block and W, stores it over the whole scratch, and then
  reads it back in two row halves; at every other row tile it reads the two halves of what the scratch holds.
  In both cases the output block is the payload of the two half products plus the bias row, stored over the
  whole output buffer; the inputs are only read.
-/
import proofs.«126129_g71863392796808_cont_9to1_m_899_6_alg».proof.Proof.KnBase
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of a store or load that starts at the origin. -/
theorem hz3 : (![0, 0, 0] : Fin 3 → ℕ) = fun _ => 0 := by funext a; fin_cases a <;> rfl
theorem hz2 : (![0, 0] : Fin 2 → ℕ) = fun _ => 0 := by funext a; fin_cases a <;> rfl

/-- A load through a whole memref whose contents read `x` reads `x` at the rectangle's indices. -/
theorem readAt_unread {s : Shape} {e : EltTy} (a : Memref sig .tc .vmem s e) (h : a.IsWhole) (r : Rect s) (x : s.Idx → Elt F e) :
    View.readAt (Elt F) a.view r.toLoadRect (h.unread x) = View.ld x r := by
  show View.ld (a.view.read (Elt F) (h.unread x)) r = _
  rw [h.read_unread]

/-- Rows 0 … 2047 of a 4096 × 512 matrix, as the body loads them. -/
abbrev slabLo (xs : Vec F S4096x512 .bf16) : Vec F S2048x512 .bf16 :=
  View.ld xs (Rect.unit (s := S4096x512) ![0, 0] S2048x512.size inb_S4096x512_S2048x512_0_0)
/-- Rows 2048 … 4095. -/
abbrev slabHi (xs : Vec F S4096x512 .bf16) : Vec F S2048x512 .bf16 :=
  View.ld xs (Rect.unit (s := S4096x512) ![2048, 0] S2048x512.size inb_S4096x512_S2048x512_2048_0)

/-- The output block from the two adjacency half blocks, the support the scratch holds and the bias row. -/
abbrev outBlk (x1 x2 : Vec F S1x512x2048 .f32) (xs : Vec F S4096x512 .bf16) (x4 : Vec F S1x512 .f32) : Vec F S1x512x512 .f32 :=
  k0_pay2 x1 x2 (slabLo xs) (slabHi xs) x4

set_option maxHeartbeats 4000000 in
/-- Away from a batch's first row tile: the scratch is read, not written. -/
theorem bodyB (c : Dev nD) (i : grid0.Coords) (arg2 : Memref sig .tc .vmem S1x4096x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512x512 .f32) (harg7 : arg7.IsWhole) (arg8 : Memref sig .tc .vmem S4096x512 .bf16) (harg8 : arg8.IsWhole) (hc : ¬cond0 i)
    (x0 : Vec F S1x4096x512 .f32) (x1 : Vec F S1x512x2048 .f32) (x2 : Vec F S1x512x2048 .f32) (x3 : Vec F S512x512 .f32) (x4 : Vec F S1x512 .f32) (xs : Vec F S4096x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outBlk x1 x2 xs x4) ∗ owns (c : Thread nD τ) arg8 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      rw [View.read_writes_eq_canon _ _ _ (fun y => ⟨_, List.mem_singleton_self _, View.mem_set_unit_zero hz3 inb_S1x512x512_S1x512x512_0_0_0 y⟩), View.canon_unit_zero hz3]
      have e1 := (readAt_unread arg3 harg3 _ x1).trans (View.ld_unit_zero hz3 inb_S1x512x2048_S1x512x2048_0_0_0 x1)
      have e2 := (readAt_unread arg4 harg4 _ x2).trans (View.ld_unit_zero hz3 inb_S1x512x2048_S1x512x2048_0_0_0 x2)
      have e3 := readAt_unread arg8 harg8 (Rect.unit (s := S4096x512) ![0, 0] S2048x512.size inb_S4096x512_S2048x512_0_0) xs
      have e4 := readAt_unread arg8 harg8 (Rect.unit (s := S4096x512) ![2048, 0] S2048x512.size inb_S4096x512_S2048x512_2048_0) xs
      have e5 := (readAt_unread arg6 harg6 _ x4).trans (View.ld_unit_zero hz2 inb_S1x512_S1x512_0_0 x4)
      exact congr (congr (congr (congr (congrArg k0_pay2 e1) e2) e3) e4) e5
    iexists _; isplitr; · ipureintro; exact harg8.read_unread _
    iexact HS

set_option maxHeartbeats 4000000 in
/-- At a batch's first row tile: the support is stored over the whole scratch, whatever it held, and read back. -/
theorem bodyA (c : Dev nD) (i : grid0.Coords) (arg2 : Memref sig .tc .vmem S1x4096x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512x512 .f32) (harg7 : arg7.IsWhole) (arg8 : Memref sig .tc .vmem S4096x512 .bf16) (harg8 : arg8.IsWhole) (hc : cond0 i)
    (x0 : Vec F S1x4096x512 .f32) (x1 : Vec F S1x512x2048 .f32) (x2 : Vec F S1x512x2048 .f32) (x3 : Vec F S512x512 .f32) (x4 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outBlk x1 x2 (k0_pay1 x0 x3) x4) ∗ owns (c : Thread nD τ) arg8 fullShare (k0_pay1 x0 x3)) -∗ K ⟨⟩))
      ⊢ wp frame (wpE (defs₀ (F := F)) Variants.none c none) E (cc0__gcn_kernel i arg2 harg2 arg3 harg3 arg4 harg4 arg5 harg5 arg6 harg6 arg7 harg7 arg8 harg8) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      rw [View.read_writes_eq_canon _ _ _ (fun y => ⟨_, List.mem_singleton_self _, View.mem_set_unit_zero hz3 inb_S1x512x512_S1x512x512_0_0_0 y⟩), View.canon_unit_zero hz3]
      sl_unfold_words
      have e1 := (readAt_unread arg3 harg3 _ x1).trans (View.ld_unit_zero hz3 inb_S1x512x2048_S1x512x2048_0_0_0 x1)
      have e2 := (readAt_unread arg4 harg4 _ x2).trans (View.ld_unit_zero hz3 inb_S1x512x2048_S1x512x2048_0_0_0 x2)
      have e5 := (readAt_unread arg6 harg6 _ x4).trans (View.ld_unit_zero hz2 inb_S1x512_S1x512_0_0 x4)
      have ex := (readAt_unread arg2 harg2 _ x0).trans (View.ld_unit_zero hz3 inb_S1x4096x512_S1x4096x512_0_0_0 x0)
      have ew := (readAt_unread arg5 harg5 _ x3).trans (View.ld_unit_zero hz2 inb_S512x512_S512x512_0_0 x3)
      have es := congr (congrArg k0_pay1 ex) ew
      rw [View.readCov_eq_canon', View.readCov_eq_canon', View.canon_unit_zero hz2, es]
      exact congr (congr (congr (congr (congrArg k0_pay2 e1) e2) rfl) rfl) e5
    iexists _; isplitr
    swap; · iexact HS
    ipureintro
    sl_unfold_words
    rw [View.read_writes_eq_canon _ _ _ (fun y => ⟨_, List.mem_singleton_self _, View.mem_set_unit_zero hz2 inb_S4096x512_S4096x512_0_0 y⟩), View.canon_unit_zero hz2]
    exact congr (congrArg k0_pay1 ((readAt_unread arg2 harg2 _ x0).trans (View.ld_unit_zero hz3 inb_S1x4096x512_S1x4096x512_0_0_0 x0)))
      ((readAt_unread arg5 harg5 _ x3).trans (View.ld_unit_zero hz2 inb_S512x512_S512x512_0_0 x3))

end Cert.Kernel.Frm

end
-- ==== Proof.KnLaunch.lean ====
/-
  The launch of the kernel's one region, for ANY proof data over the region-entry arrays: the adjacency
  array is read through two windows, so the launch deals its share in halves between them and joins the halves
  again when the region ends; every other array is held whole by its one window.
-/
import proofs.«126129_g71863392796808_cont_9to1_m_899_6_alg».proof.Proof.KnBase

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- The distinct buffers behind the six windows' arrays: five, the adjacency array standing behind two windows. -/
theorem arrImage : (Finset.univ.image (Pipeline.arrRef spec0)) = [main_arg0, main_arg1, main_arg2, main_v0, main_v1].toFinset := by decide

/-- The five buffers, each held whole at its entry contents, make the pipeline's six windowed arrays at entry: an
    array read or written through one window passes as it is (a whole memref's index set is every index, and the
    contents before any write-back are the entry contents), and the adjacency array's full share is cut into its
    left and right halves, one for each of the two windows that read it. -/
theorem hsplit_of (c : Dev nD) (dat : Dat τ (Elt F) Unit ℕ (UR sig nD τ) ℕ cfg0 c)
    (hq : ∀ w, dat.q w = shareOf w) (hA : ∀ w, dat.A w = V m c (Pipeline.arrRef spec0 w)) :
    (Pipeline.arrBufs spec0 c (V m c) : sProp 𝕄) ⊢ dat.arrays (dat.arrAt · 0) := by
  -- each window's share: an input holds what the data name for it, the output the full share
  have s0 : dat.share 0 = fullShare := (hq 0).trans rfl
  have s1 : dat.share 1 = fullShare.left := (hq 1).trans rfl
  have s2 : dat.share 2 = fullShare.right := (hq 2).trans rfl
  have s3 : dat.share 3 = fullShare := (hq 3).trans rfl
  have s4 : dat.share 4 = fullShare := (hq 4).trans rfl
  have s5 : dat.share 5 = fullShare := rfl
  -- before the first point nothing has been written back
  have e : ∀ w, dat.arrAt w 0 = V m c (Pipeline.arrRef spec0 w) := fun w => hA w
  unfold Pipeline.arrBufs Dat.arrays
  rw [bigSep_eq_bigSepL_of_eq _ arrImage (by decide), bigSep_W0]
  simp only [bigSepL_cons_cons, bigSepL_singleton]
  rw [s0, s1, s2, s3, s4, s5, e 0, e 1, e 2, e 3, e 4, e 5]
  simp only [View.set_whole]
  show iprop(((c.tc : Thread nD τ).loc main_arg0 ↦{fullShare} V m c main_arg0)
      ∗ ((c.tc : Thread nD τ).loc main_arg1 ↦{fullShare} V m c main_arg1)
      ∗ ((c.tc : Thread nD τ).loc main_arg2 ↦{fullShare} V m c main_arg2)
      ∗ ((c.tc : Thread nD τ).loc main_v0 ↦{fullShare} V m c main_v0)
      ∗ ((c.tc : Thread nD τ).loc main_v1 ↦{fullShare} V m c main_v1))
    ⊢ iprop(((c.tc : Thread nD τ).loc main_arg0 ↦{fullShare} V m c main_arg0)
      ∗ ((c.tc : Thread nD τ).loc main_arg1 ↦{fullShare.left} V m c main_arg1)
      ∗ ((c.tc : Thread nD τ).loc main_arg1 ↦{fullShare.right} V m c main_arg1)
      ∗ ((c.tc : Thread nD τ).loc main_arg2 ↦{fullShare} V m c main_arg2)
      ∗ ((c.tc : Thread nD τ).loc main_v0 ↦{fullShare} V m c main_v0)
      ∗ ((c.tc : Thread nD τ).loc main_v1 ↦{fullShare} V m c main_v1))
  iintro ⟨H0, H1, H2, H3, H4⟩
  -- the full share is the join of its two disjoint halves
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-! ## The run -/

/-- From a body obligation to the run: every weakly fair execution ends, each window's array at what the
    write-backs make of its entry contents, every other unscoped buffer as the region found it. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = shareOf w) (howed : ∀ c t, (dats 0 c).owed t = 0)
    (hA : ∀ c w, (dats 0 c).A w = V m c (Pipeline.arrRef spec0 w))
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    θ_run defs (onTc (τ := τ) (main (F := F))) (s₀ m ρ) (Pipeline.FramePost cfgs dats 0 (V m)) := by
  classical
  -- The general launch for windows that may share an array: the layout facts are the ones decided for this program's windows, the kernel
  -- has no semaphore of its own and prefetches no table, and the ghost state is the pipeline's launch element alone.
  -- The generator register goes into the invariant (`X`, `Y`); the one unscoped buffer no window stages (`Z`)
  -- bypasses the region and is read back at the end.
  refine Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => (BI.emp : sProp 𝕄)) (u₀ := initOf (Pipeline.cells cfgs cellOf_inj) (Pipeline.launchToks cfgs cellOf_inj))
    (hu₀ := ?hu) (V := V m) (hmain := hmain m Variants.none)
    (hsplit := fun c => hsplit_of m c (dats 0 c) (hq c) (hA c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := ?hQ)
  case hu =>
    -- the whole user component is the pipeline's; nothing else is funded
    rw [ownU_emb₁, BI.bigSep_emp_const]
    iintro Hu; imodintro
    isplitl [Hu]
    · iexact Hu
    · iempintro
  case hX =>
    -- of what the launch leaves a core, the region keeps the generator register and the bypassing buffer
    intro c
    rw [Pipeline.unscopedRestP_none]
    iintro ⟨HU, -, -, -, Hp, -⟩; imodintro
    isplitl [Hp]
    · iexists _; iexact Hp
    · iexact HU
  case hin =>
    -- the register and the scoped rest are the class invariant, which yields the data's invariant before point 0
    intro c
    refine (show _ ⊢ (Pipeline.ΦA spec0 c : sProp 𝕄) from ?_).trans (hin c)
    unfold Pipeline.ΦA
    iintro ⟨Hp, -, Hr⟩
    isplitl [Hr] <;> iassumption
  case hout =>
    -- and after the last point the data's invariant yields them back
    intro c
    refine (hout c).trans ?_
    rw [Pipeline.ownSems0_none]; unfold Pipeline.ΦA
    iintro ⟨Hr, Hp⟩
    isplitl [Hp]; · iexact Hp
    isplitr; · iempintro
    iexact Hr
  case hY =>
    -- the bypassing buffer, still held whole at its entry contents, is read off the final memory
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption
  case hQ =>
    intro s h c
    exact ⟨(h c).1, (h c).2.2⟩

/-- The frame claim's post from that run's: a staged input array is never written, and the bias array, which no
    window stages, bypasses the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c)⟩) h

end Cert.Kernel.Frm

end
-- ==== Proof.KnFrame.lean ====
/-
  The proof data of the kernel's one pipeline and its body obligation. After ANY grid point t the scratch holds
  the support matrix x·W computed from the x block and the W block at t itself: at the first row tile of a batch
  the body has just stored it, and at any other row tile neither block index has moved since the point before, so
  the support the scratch already held is the support of this point's blocks. Hence what the body leaves in the
  output buffer at t is one closed function of the five input blocks at t, with no recursion over the points, and
  the region invariant after point t is the scratch at that support.
-/
import proofs.«126129_g71863392796808_cont_9to1_m_899_6_alg».proof.Proof.KnBody
import proofs.«126129_g71863392796808_cont_9to1_m_899_6_alg».proof.Proof.KnLaunch

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The support at a point -/

/-- The support matrix from the x block and the W block at point `t`. -/
def supp (c : Dev nD) (t : Fin cfg0.N) : Vec F S4096x512 .bf16 := k0_pay1 (iblk m c 0 t) (iblk m c 3 t)

/-- The point before `t`. -/
abbrev predPt (t : Fin cfg0.N) : Fin cfg0.N := ⟨t.val - 1, Nat.lt_of_le_of_lt (Nat.sub_le _ _) t.isLt⟩

/-! ## The invariant and the proof data -/

/-- Before the first point the scratch holds anything; after point `n` it holds that point's support. -/
def PhiS (c : Dev nD) : (n : ℕ) → n ≤ cfg0.N → sProp 𝕄
  | 0, _ => Pipeline.ΦA spec0 c
  | n + 1, hn => iprop(owns (c : Thread nD τ) scM fullShare (supp m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (supp m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (supp m c ⟨n - 1, by omega⟩) ∗ (∃ r, prngReg c r)) := by
  cases n with
  | zero => exact absurd rfl hz
  | succ n => rfl

/-- The proof data: the arrays as the region finds them; each input's buffer left at its block; the output's
    buffer left at the block computed from the inputs' blocks at the point; the scratch tracked by `PhiS`; the
    adjacency array's share dealt in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 1 t) (iblk m c 2 t) (supp m c t) (iblk m c 4 t)
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 1 t) (iblk m c 2 t) (supp m c t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## Inside a batch the support does not change -/

/-- A fetch of the x window reads its block, -/
theorem fetched0 (c : Dev nD) (t : Fin cfg0.N) (d) : (dats m 0 c).fetched 0 t d = iblk m c 0 t := by
  unfold Dat.fetched Dat.blockOf iblk; rw [A_eq]; try rfl
/-- and a fetch of the W window its. -/
theorem fetched3 (c : Dev nD) (t : Fin cfg0.N) (d) : (dats m 0 c).fetched 3 t d = iblk m c 3 t := by
  unfold Dat.fetched Dat.blockOf iblk; rw [A_eq]; try rfl

/-- Off a batch's first row tile the x window is not fetched: its block index is the previous point's. -/
theorem idx0_pred (t : Fin cfg0.N) (h : t.val % 8 ≠ 0) : (cfg0.win 0).index t = (cfg0.win 0).index (predPt t) :=
  ((cfg0.win 0).index_eq_of_fetch rfl t (by
    cases hf : (cfg0.win 0).fetch t
    · rfl
    · exact absurd ((fetch0_0 t).mp hf) h)).2

/-- Nor is the W window, which is fetched once. -/
theorem idx3_pred (t : Fin cfg0.N) (h : t.val % 8 ≠ 0) : (cfg0.win 3).index t = (cfg0.win 3).index (predPt t) :=
  ((cfg0.win 3).index_eq_of_fetch rfl t (by
    cases hf : (cfg0.win 3).fetch t
    · rfl
    · exact absurd ((fetch0_3 t).mp hf) (fun h32 => h (by omega)))).2

/-- So both blocks, and with them the support, are the previous point's. -/
theorem supp_pred (c : Dev nD) (t : Fin cfg0.N) (h : t.val % 8 ≠ 0) : supp m c (predPt t) = supp m c t := by
  have e0 : iblk m c 0 (predPt t) = iblk m c 0 t :=
    (fetched0 m c (predPt t) (iblk m c 0 t)).symm.trans
      (((dats m 0 c).fetched_congr 0 (idx0_pred t h).symm rfl (iblk m c 0 t)).trans (fetched0 m c t (iblk m c 0 t)))
  have e3 : iblk m c 3 (predPt t) = iblk m c 3 t :=
    (fetched3 m c (predPt t) (iblk m c 3 t)).symm.trans
      (((dats m 0 c).fetched_congr 3 (idx3_pred t h).symm rfl (iblk m c 3 t)).trans (fetched3 m c t (iblk m c 3 t)))
  unfold supp
  rw [e0, e3]

/-! ## The body obligation, at a generic point -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

theorem leaves0 (c : Dev nD) (t : Fin cfg0.N) :
    (dats m 0 c).leavesExact 0 t = owns (c : Thread nD τ) (ms0 t) fullShare ((dats m 0 c).after 0 t) := by
  unfold Dat.leavesExact; rw [live0 t]
theorem leaves1 (c : Dev nD) (t : Fin cfg0.N) :
    (dats m 0 c).leavesExact 1 t = owns (c : Thread nD τ) (ms1 t) fullShare ((dats m 0 c).after 1 t) := by
  unfold Dat.leavesExact; rw [live1 t]
theorem leaves2 (c : Dev nD) (t : Fin cfg0.N) :
    (dats m 0 c).leavesExact 2 t = owns (c : Thread nD τ) (ms2 t) fullShare ((dats m 0 c).after 2 t) := by
  unfold Dat.leavesExact; rw [live2 t]
theorem leaves3 (c : Dev nD) (t : Fin cfg0.N) :
    (dats m 0 c).leavesExact 3 t = owns (c : Thread nD τ) (ms3 t) fullShare ((dats m 0 c).after 3 t) := by
  unfold Dat.leavesExact; rw [live3 t]
theorem leaves4 (c : Dev nD) (t : Fin cfg0.N) :
    (dats m 0 c).leavesExact 4 t = owns (c : Thread nD τ) (ms4 t) fullShare ((dats m 0 c).after 4 t) := by
  unfold Dat.leavesExact; rw [live4 t]
theorem leaves5 (c : Dev nD) (t : Fin cfg0.N) :
    (dats m 0 c).leavesExact 5 t = owns (c : Thread nD τ) (ms5 t) fullShare ((dats m 0 c).after 5 t) := by
  unfold Dat.leavesExact; rw [live5 t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. The inputs' buffers hold their blocks. At a batch's first row tile the scratch may
    hold anything (the support of the previous batch, or at the very first point whatever the launch left), and
    the body leaves this point's support in it; elsewhere the scratch holds the previous point's support, which
    is this point's, and the body leaves it. Either way the output buffer is left at the block computed from
    this point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, after0, after1, after2, after3, after4, after5]
  by_cases h0 : t.val % 8 = 0
  · by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (bodyA c (grid0.coords t) _ _ _ _ _ _ _ _ _ _ _ _ _ _ ((hcond0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (bodyA c (grid0.coords t) _ _ _ _ _ _ _ _ _ _ _ _ _ _ ((hcond0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [PhiS_castSucc m c t, PhiS_pos m c _ _ hz]
    rw [show supp m c ⟨t.val - 1, by omega⟩ = supp m c t from supp_pred m c t h0]
    iintro ⟨⟨HS, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ _ _ (fun h => h0 ((hcond0 t).mp h)) (iblk m c 0 t) (iblk m c 1 t) (iblk m c 2 t) (iblk m c 3 t) (iblk m c 4 t) (supp m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 (Nat.zero_le _) from rfl, PhiS_zero m c 0 _ rfl]

/-- After the last point the support's name is forgotten again. -/
theorem hout (c : Dev nD) : (dats m 0 c).Φ (Fin.last cfg0.N) ⊢ (Pipeline.ΦA spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

/-- Every weakly fair execution ends, each window's array at what the write-backs make of it. -/
theorem run_main : θ_run defs (onTc (τ := τ) (main (F := F))) (s₀ m ρ) (Pipeline.FramePost cfgs (dats m) 0 (V m)) :=
  run_of m ρ (dats m) (fun c => (body_obligation m c).loose) (fun _ _ => rfl) (fun _ _ => rfl) (A_eq m) (hin m) (hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KiBase.lean ====
/-
  The frame layer of the idealized kernel, shared by everything stated about its one pipeline: the arrays as the
  region finds them (after the host reshape of the bias to a row), each window's block at a grid point, the one
  branch of the body in closed form over the 4 × 8 grid (the support matrix is recomputed exactly at the first
  row tile of each batch, the points ≡ 0 mod 8), and what each input window's staging buffer holds when the body
  runs. The adjacency array is handed to the kernel twice (its left and right column halves are two windows on
  one array), so the two windows hold complementary halves of its share.
-/
import proofs.«126129_g71863392796808_cont_9to1_m_899_6_alg».proof.Proof.Gen.KernelIdeal.Launch
import proofs.«126129_g71863392796808_cont_9to1_m_899_6_alg».proof.Proof.Gen.KernelIdeal.Skeleton
import proofs.«126129_g71863392796808_cont_9to1_m_899_6_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- A core's buffers when the region is entered: the launch contents after the one host operation before it
    (the bias reshaped to a 1 × 512 row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: each argument array is found as launched. -/
theorem V_arg (c : Dev nD) (b : Ref sig .tc) (hb : Proc.devRef (τ := τ) .tc b ≠ Proc.devRef (τ := τ) .tc main_v0) :
    V m c b = m ((c : Thread nD τ).loc b) :=
  StableHlo.after_of_forall_not_mem (b := Proc.devRef (τ := τ) .tc b) _ _ (List.forall_iff_forall_mem.mp (by
    simp only [hostOps0, List.Forall, StableHlo.reshape_writes, Finset.mem_singleton]
    exact hb))

theorem V_main_arg0 (c : Dev nD) : V m c main_arg0 = m ((c : Thread nD τ).loc main_arg0) :=
  V_arg m c main_arg0 (StableHlo.devRef_ne_of_ne (by decide))
theorem V_main_arg1 (c : Dev nD) : V m c main_arg1 = m ((c : Thread nD τ).loc main_arg1) :=
  V_arg m c main_arg1 (StableHlo.devRef_ne_of_ne (by decide))
theorem V_main_arg2 (c : Dev nD) : V m c main_arg2 = m ((c : Thread nD τ).loc main_arg2) :=
  V_arg m c main_arg2 (StableHlo.devRef_ne_of_ne (by decide))
theorem V_main_arg3 (c : Dev nD) : V m c main_arg3 = m ((c : Thread nD τ).loc main_arg3) :=
  V_arg m c main_arg3 (StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's staging buffer holds its block whenever the body runs, fetched at that point or not (an
    unfetched window's block index has not moved), for any proof data over these arrays whose body leaves the
    block in place. One statement per input window, each at its literal number. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The branch condition from the grid coordinates: the row-tile coordinate is zero. -/
abbrev cond0 (i : grid0.Coords) : Prop := (Scalar.cmpi .ne (Scalar.extui (Scalar.cmpi .eq (BitVec.ofNat 32 (i 1).val) 0#32)) 0#32) = 1#1
/-- It holds at the first row tile of each batch. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs at a point, and the scratch -/

abbrev ms0 (t : Fin cfg0.N) : Memref sig .tc .vmem S1x4096x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The support scratch: a whole scoped buffer of the kernel's own, carried between grid points. -/
abbrev scM : Memref sig .tc .vmem S4096x512 .bf16 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The shares of the input arrays -/

/-- The adjacency array is read through two windows: each holds one half of its share; every other input array is
    held whole by its one window. -/
def shareOf : Fin 6 → PosShare TreeShare := fun w => if w.val = 1 then fullShare.left else if w.val = 2 then fullShare.right else fullShare

end Cert.KernelIdeal.Frm

end
-- ==== Proof.KiBody.lean ====
/-
  The kernel body as two triples, one per value of its branch. At the first row tile of a batch the body
  computes the support matrix x·W of the batch from the x block and W, stores it over the whole scratch, and then
  reads it back in two row halves; at every other row tile it reads the two halves of what the scratch holds.
  In both cases the output block is the payload of the two half products plus the bias row, stored over the
  whole output buffer; the inputs are only read.
-/
import proofs.«126129_g71863392796808_cont_9to1_m_899_6_alg».proof.Proof.KiBase
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a store or load that starts at the origin. -/
theorem hz3 : (![0, 0, 0] : Fin 3 → ℕ) = fun _ => 0 := by funext a; fin_cases a <;> rfl
theorem hz2 : (![0, 0] : Fin 2 → ℕ) = fun _ => 0 := by funext a; fin_cases a <;> rfl

/-- A load through a whole memref whose contents read `x` reads `x` at the rectangle's indices. -/
theorem readAt_unread {s : Shape} {e : EltTy} (a : Memref sig .tc .vmem s e) (h : a.IsWhole) (r : Rect s) (x : s.Idx → Elt F e) :
    View.readAt (Elt F) a.view r.toLoadRect (h.unread x) = View.ld x r := by
  show View.ld (a.view.read (Elt F) (h.unread x)) r = _
  rw [h.read_unread]

/-- Rows 0 … 2047 of a 4096 × 512 matrix, as the body loads them. -/
abbrev slabLo (xs : Vec F S4096x512 .bf16) : Vec F S2048x512 .bf16 :=
  View.ld xs (Rect.unit (s := S4096x512) ![0, 0] S2048x512.size inb_S4096x512_S2048x512_0_0)
/-- Rows 2048 … 4095. -/
abbrev slabHi (xs : Vec F S4096x512 .bf16) : Vec F S2048x512 .bf16 :=
  View.ld xs (Rect.unit (s := S4096x512) ![2048, 0] S2048x512.size inb_S4096x512_S2048x512_2048_0)

/-- The output block from the two adjacency half blocks, the support the scratch holds and the bias row. -/
abbrev outBlk (x1 x2 : Vec F S1x512x2048 .f32) (xs : Vec F S4096x512 .bf16) (x4 : Vec F S1x512 .f32) : Vec F S1x512x512 .f32 :=
  k0_pay2 x1 x2 (slabLo xs) (slabHi xs) x4

set_option maxHeartbeats 4000000 in
/-- Away from a batch's first row tile: the scratch is read, not written. -/
theorem bodyB (c : Dev nD) (i : grid0.Coords) (arg2 : Memref sig .tc .vmem S1x4096x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512x512 .f32) (harg7 : arg7.IsWhole) (arg8 : Memref sig .tc .vmem S4096x512 .bf16) (harg8 : arg8.IsWhole) (hc : ¬cond0 i)
    (x0 : Vec F S1x4096x512 .f32) (x1 : Vec F S1x512x2048 .f32) (x2 : Vec F S1x512x2048 .f32) (x3 : Vec F S512x512 .f32) (x4 : Vec F S1x512 .f32) (xs : Vec F S4096x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outBlk x1 x2 xs x4) ∗ owns (c : Thread nD τ) arg8 fullShare xs) -∗ K ⟨⟩))
      ⊢ wp frame (wpE (defs₀ (F := F)) Variants.none c none) E (cc0__gcn_kernel i arg2 harg2 arg3 harg3 arg4 harg4 arg5 harg5 arg6 harg6 arg7 harg7 arg8 harg8) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      rw [View.read_writes_eq_canon _ _ _ (fun y => ⟨_, List.mem_singleton_self _, View.mem_set_unit_zero hz3 inb_S1x512x512_S1x512x512_0_0_0 y⟩), View.canon_unit_zero hz3]
      have e1 := (readAt_unread arg3 harg3 _ x1).trans (View.ld_unit_zero hz3 inb_S1x512x2048_S1x512x2048_0_0_0 x1)
      have e2 := (readAt_unread arg4 harg4 _ x2).trans (View.ld_unit_zero hz3 inb_S1x512x2048_S1x512x2048_0_0_0 x2)
      have e3 := readAt_unread arg8 harg8 (Rect.unit (s := S4096x512) ![0, 0] S2048x512.size inb_S4096x512_S2048x512_0_0) xs
      have e4 := readAt_unread arg8 harg8 (Rect.unit (s := S4096x512) ![2048, 0] S2048x512.size inb_S4096x512_S2048x512_2048_0) xs
      have e5 := (readAt_unread arg6 harg6 _ x4).trans (View.ld_unit_zero hz2 inb_S1x512_S1x512_0_0 x4)
      exact congr (congr (congr (congr (congrArg k0_pay2 e1) e2) e3) e4) e5
    iexists _; isplitr; · ipureintro; exact harg8.read_unread _
    iexact HS

set_option maxHeartbeats 4000000 in
/-- At a batch's first row tile: the support is stored over the whole scratch, whatever it held, and read back. -/
theorem bodyA (c : Dev nD) (i : grid0.Coords) (arg2 : Memref sig .tc .vmem S1x4096x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512x512 .f32) (harg7 : arg7.IsWhole) (arg8 : Memref sig .tc .vmem S4096x512 .bf16) (harg8 : arg8.IsWhole) (hc : cond0 i)
    (x0 : Vec F S1x4096x512 .f32) (x1 : Vec F S1x512x2048 .f32) (x2 : Vec F S1x512x2048 .f32) (x3 : Vec F S512x512 .f32) (x4 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (outBlk x1 x2 (k0_pay1 x0 x3) x4) ∗ owns (c : Thread nD τ) arg8 fullShare (k0_pay1 x0 x3)) -∗ K ⟨⟩))
      ⊢ wp frame (wpE (defs₀ (F := F)) Variants.none c none) E (cc0__gcn_kernel i arg2 harg2 arg3 harg3 arg4 harg4 arg5 harg5 arg6 harg6 arg7 harg7 arg8 harg8) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      rw [View.read_writes_eq_canon _ _ _ (fun y => ⟨_, List.mem_singleton_self _, View.mem_set_unit_zero hz3 inb_S1x512x512_S1x512x512_0_0_0 y⟩), View.canon_unit_zero hz3]
      sl_unfold_words
      have e1 := (readAt_unread arg3 harg3 _ x1).trans (View.ld_unit_zero hz3 inb_S1x512x2048_S1x512x2048_0_0_0 x1)
      have e2 := (readAt_unread arg4 harg4 _ x2).trans (View.ld_unit_zero hz3 inb_S1x512x2048_S1x512x2048_0_0_0 x2)
      have e5 := (readAt_unread arg6 harg6 _ x4).trans (View.ld_unit_zero hz2 inb_S1x512_S1x512_0_0 x4)
      have ex := (readAt_unread arg2 harg2 _ x0).trans (View.ld_unit_zero hz3 inb_S1x4096x512_S1x4096x512_0_0_0 x0)
      have ew := (readAt_unread arg5 harg5 _ x3).trans (View.ld_unit_zero hz2 inb_S512x512_S512x512_0_0 x3)
      have es := congr (congrArg k0_pay1 ex) ew
      rw [View.readCov_eq_canon', View.readCov_eq_canon', View.canon_unit_zero hz2, es]
      exact congr (congr (congr (congr (congrArg k0_pay2 e1) e2) rfl) rfl) e5
    iexists _; isplitr
    swap; · iexact HS
    ipureintro
    sl_unfold_words
    rw [View.read_writes_eq_canon _ _ _ (fun y => ⟨_, List.mem_singleton_self _, View.mem_set_unit_zero hz2 inb_S4096x512_S4096x512_0_0 y⟩), View.canon_unit_zero hz2]
    exact congr (congrArg k0_pay1 ((readAt_unread arg2 harg2 _ x0).trans (View.ld_unit_zero hz3 inb_S1x4096x512_S1x4096x512_0_0_0 x0)))
      ((readAt_unread arg5 harg5 _ x3).trans (View.ld_unit_zero hz2 inb_S512x512_S512x512_0_0 x3))

end Cert.KernelIdeal.Frm

end
-- ==== Proof.KiLaunch.lean ====
/-
  The launch of the idealized kernel's one region, for ANY proof data over the region-entry arrays: the adjacency
  array is read through two windows, so the launch deals its share in halves between them and joins the halves
  again when the region ends; every other array is held whole by its one window.
-/
import proofs.«126129_g71863392796808_cont_9to1_m_899_6_alg».proof.Proof.KiBase

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt among the windows -/

/-- The distinct buffers behind the six windows' arrays: five, the adjacency array standing behind two windows. -/
theorem arrImage : (Finset.univ.image (Pipeline.arrRef spec0)) = [main_arg0, main_arg1, main_arg2, main_v0, main_v1].toFinset := by decide

/-- The five buffers, each held whole at its entry contents, make the pipeline's six windowed arrays at entry: an
    array read or written through one window passes as it is (a whole memref's index set is every index, and the
    contents before any write-back are the entry contents), and the adjacency array's full share is cut into its
    left and right halves, one for each of the two windows that read it. -/
theorem hsplit_of (c : Dev nD) (dat : Dat τ (Elt F) Unit ℕ (UR sig nD τ) ℕ cfg0 c)
    (hq : ∀ w, dat.q w = shareOf w) (hA : ∀ w, dat.A w = V m c (Pipeline.arrRef spec0 w)) :
    (Pipeline.arrBufs spec0 c (V m c) : sProp 𝕄) ⊢ dat.arrays (dat.arrAt · 0) := by
  -- each window's share: an input holds what the data name for it, the output the full share
  have s0 : dat.share 0 = fullShare := (hq 0).trans rfl
  have s1 : dat.share 1 = fullShare.left := (hq 1).trans rfl
  have s2 : dat.share 2 = fullShare.right := (hq 2).trans rfl
  have s3 : dat.share 3 = fullShare := (hq 3).trans rfl
  have s4 : dat.share 4 = fullShare := (hq 4).trans rfl
  have s5 : dat.share 5 = fullShare := rfl
  -- before the first point nothing has been written back
  have e : ∀ w, dat.arrAt w 0 = V m c (Pipeline.arrRef spec0 w) := fun w => hA w
  unfold Pipeline.arrBufs Dat.arrays
  rw [bigSep_eq_bigSepL_of_eq _ arrImage (by decide), bigSep_W0]
  simp only [bigSepL_cons_cons, bigSepL_singleton]
  rw [s0, s1, s2, s3, s4, s5, e 0, e 1, e 2, e 3, e 4, e 5]
  simp only [View.set_whole]
  show iprop(((c.tc : Thread nD τ).loc main_arg0 ↦{fullShare} V m c main_arg0)
      ∗ ((c.tc : Thread nD τ).loc main_arg1 ↦{fullShare} V m c main_arg1)
      ∗ ((c.tc : Thread nD τ).loc main_arg2 ↦{fullShare} V m c main_arg2)
      ∗ ((c.tc : Thread nD τ).loc main_v0 ↦{fullShare} V m c main_v0)
      ∗ ((c.tc : Thread nD τ).loc main_v1 ↦{fullShare} V m c main_v1))
    ⊢ iprop(((c.tc : Thread nD τ).loc main_arg0 ↦{fullShare} V m c main_arg0)
      ∗ ((c.tc : Thread nD τ).loc main_arg1 ↦{fullShare.left} V m c main_arg1)
      ∗ ((c.tc : Thread nD τ).loc main_arg1 ↦{fullShare.right} V m c main_arg1)
      ∗ ((c.tc : Thread nD τ).loc main_arg2 ↦{fullShare} V m c main_arg2)
      ∗ ((c.tc : Thread nD τ).loc main_v0 ↦{fullShare} V m c main_v0)
      ∗ ((c.tc : Thread nD τ).loc main_v1 ↦{fullShare} V m c main_v1))
  iintro ⟨H0, H1, H2, H3, H4⟩
  -- the full share is the join of its two disjoint halves
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-! ## The run -/

/-- From a body obligation to the run: every weakly fair execution ends, each window's array at what the
    write-backs make of its entry contents, every other unscoped buffer as the region found it. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = shareOf w) (howed : ∀ c t, (dats 0 c).owed t = 0)
    (hA : ∀ c w, (dats 0 c).A w = V m c (Pipeline.arrRef spec0 w))
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    θ_run defs (onTc (τ := τ) (main (F := F))) (s₀ m ρ) (Pipeline.FramePost cfgs dats 0 (V m)) := by
  classical
  -- The general launch for windows that may share an array: the layout facts are the ones decided for this program's windows, the kernel
  -- has no semaphore of its own and prefetches no table, and the ghost state is the pipeline's launch element alone.
  -- The generator register goes into the invariant (`X`, `Y`); the one unscoped buffer no window stages (`Z`)
  -- bypasses the region and is read back at the end.
  refine Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => (BI.emp : sProp 𝕄)) (u₀ := initOf (Pipeline.cells cfgs cellOf_inj) (Pipeline.launchToks cfgs cellOf_inj))
    (hu₀ := ?hu) (V := V m) (hmain := hmain m Variants.none)
    (hsplit := fun c => hsplit_of m c (dats 0 c) (hq c) (hA c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := ?hX) (hin := ?hin) (hout := ?hout)
    (QY := fun c s => ∀ b ∈ Pipeline.restRefs sig spec0, s.mem ((c.tc : Thread nD τ).loc b) = V m c b)
    (hY := ?hY) (hQ := ?hQ)
  case hu =>
    -- the whole user component is the pipeline's; nothing else is funded
    rw [ownU_emb₁, BI.bigSep_emp_const]
    iintro Hu; imodintro
    isplitl [Hu]
    · iexact Hu
    · iempintro
  case hX =>
    -- of what the launch leaves a core, the region keeps the generator register and the bypassing buffer
    intro c
    rw [Pipeline.unscopedRestP_none]
    iintro ⟨HU, -, -, -, Hp, -⟩; imodintro
    isplitl [Hp]
    · iexists _; iexact Hp
    · iexact HU
  case hin =>
    -- the register and the scoped rest are the class invariant, which yields the data's invariant before point 0
    intro c
    refine (show _ ⊢ (Pipeline.ΦA spec0 c : sProp 𝕄) from ?_).trans (hin c)
    unfold Pipeline.ΦA
    iintro ⟨Hp, -, Hr⟩
    isplitl [Hr] <;> iassumption
  case hout =>
    -- and after the last point the data's invariant yields them back
    intro c
    refine (hout c).trans ?_
    rw [Pipeline.ownSems0_none]; unfold Pipeline.ΦA
    iintro ⟨Hr, Hp⟩
    isplitl [Hp]; · iexact Hp
    isplitr; · iempintro
    iexact Hr
  case hY =>
    -- the bypassing buffer, still held whole at its entry contents, is read off the final memory
    intro c s'
    iintro ⟨-, HU, HSI⟩
    unfold Pipeline.unscopedRest
    imodintro
    iapply (pointsTo_read_all (Pipeline.restRefs sig spec0) (fun b => (c.tc : Thread nD τ).loc b) (V m c) s')
    isplitl [HU] <;> iassumption
  case hQ =>
    intro s h c
    exact ⟨(h c).1, (h c).2.2⟩

/-- The frame claim's post from that run's: a staged input array is never written, and the bias array, which no
    window stages, bypasses the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c)⟩) h

end Cert.KernelIdeal.Frm

end
-- ==== Proof.KiFrame.lean ====
/-
  The proof data of the kernel's one pipeline and its body obligation. After ANY grid point t the scratch holds
  the support matrix x·W computed from the x block and the W block at t itself: at the first row tile of a batch
  the body has just stored it, and at any other row tile neither block index has moved since the point before, so
  the support the scratch already held is the support of this point's blocks. Hence what the body leaves in the
  output buffer at t is one closed function of the five input blocks at t, with no recursion over the points, and
  the region invariant after point t is the scratch at that support.
-/
import proofs.«126129_g71863392796808_cont_9to1_m_899_6_alg».proof.Proof.KiBody
import proofs.«126129_g71863392796808_cont_9to1_m_899_6_alg».proof.Proof.KiLaunch

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The support at a point -/

/-- The support matrix from the x block and the W block at point `t`. -/
def supp (c : Dev nD) (t : Fin cfg0.N) : Vec F S4096x512 .bf16 := k0_pay1 (iblk m c 0 t) (iblk m c 3 t)

/-- The point before `t`. -/
abbrev predPt (t : Fin cfg0.N) : Fin cfg0.N := ⟨t.val - 1, Nat.lt_of_le_of_lt (Nat.sub_le _ _) t.isLt⟩

/-! ## The invariant and the proof data -/

/-- Before the first point the scratch holds anything; after point `n` it holds that point's support. -/
def PhiS (c : Dev nD) : (n : ℕ) → n ≤ cfg0.N → sProp 𝕄
  | 0, _ => Pipeline.ΦA spec0 c
  | n + 1, hn => iprop(owns (c : Thread nD τ) scM fullShare (supp m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (supp m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (supp m c ⟨n - 1, by omega⟩) ∗ (∃ r, prngReg c r)) := by
  cases n with
  | zero => exact absurd rfl hz
  | succ n => rfl

/-- The proof data: the arrays as the region finds them; each input's buffer left at its block; the output's
    buffer left at the block computed from the inputs' blocks at the point; the scratch tracked by `PhiS`; the
    adjacency array's share dealt in halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 1 t) (iblk m c 2 t) (supp m c t) (iblk m c 4 t)
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 1 t) (iblk m c 2 t) (supp m c t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## Inside a batch the support does not change -/

/-- A fetch of the x window reads its block, -/
theorem fetched0 (c : Dev nD) (t : Fin cfg0.N) (d) : (dats m 0 c).fetched 0 t d = iblk m c 0 t := by
  unfold Dat.fetched Dat.blockOf iblk; rw [A_eq]; try rfl
/-- and a fetch of the W window its. -/
theorem fetched3 (c : Dev nD) (t : Fin cfg0.N) (d) : (dats m 0 c).fetched 3 t d = iblk m c 3 t := by
  unfold Dat.fetched Dat.blockOf iblk; rw [A_eq]; try rfl

/-- Off a batch's first row tile the x window is not fetched: its block index is the previous point's. -/
theorem idx0_pred (t : Fin cfg0.N) (h : t.val % 8 ≠ 0) : (cfg0.win 0).index t = (cfg0.win 0).index (predPt t) :=
  ((cfg0.win 0).index_eq_of_fetch rfl t (by
    cases hf : (cfg0.win 0).fetch t
    · rfl
    · exact absurd ((fetch0_0 t).mp hf) h)).2

/-- Nor is the W window, which is fetched once. -/
theorem idx3_pred (t : Fin cfg0.N) (h : t.val % 8 ≠ 0) : (cfg0.win 3).index t = (cfg0.win 3).index (predPt t) :=
  ((cfg0.win 3).index_eq_of_fetch rfl t (by
    cases hf : (cfg0.win 3).fetch t
    · rfl
    · exact absurd ((fetch0_3 t).mp hf) (fun h32 => h (by omega)))).2

/-- So both blocks, and with them the support, are the previous point's. -/
theorem supp_pred (c : Dev nD) (t : Fin cfg0.N) (h : t.val % 8 ≠ 0) : supp m c (predPt t) = supp m c t := by
  have e0 : iblk m c 0 (predPt t) = iblk m c 0 t :=
    (fetched0 m c (predPt t) (iblk m c 0 t)).symm.trans
      (((dats m 0 c).fetched_congr 0 (idx0_pred t h).symm rfl (iblk m c 0 t)).trans (fetched0 m c t (iblk m c 0 t)))
  have e3 : iblk m c 3 (predPt t) = iblk m c 3 t :=
    (fetched3 m c (predPt t) (iblk m c 3 t)).symm.trans
      (((dats m 0 c).fetched_congr 3 (idx3_pred t h).symm rfl (iblk m c 3 t)).trans (fetched3 m c t (iblk m c 3 t)))
  unfold supp
  rw [e0, e3]

/-! ## The body obligation, at a generic point -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

theorem leaves0 (c : Dev nD) (t : Fin cfg0.N) :
    (dats m 0 c).leavesExact 0 t = owns (c : Thread nD τ) (ms0 t) fullShare ((dats m 0 c).after 0 t) := by
  unfold Dat.leavesExact; rw [live0 t]
theorem leaves1 (c : Dev nD) (t : Fin cfg0.N) :
    (dats m 0 c).leavesExact 1 t = owns (c : Thread nD τ) (ms1 t) fullShare ((dats m 0 c).after 1 t) := by
  unfold Dat.leavesExact; rw [live1 t]
theorem leaves2 (c : Dev nD) (t : Fin cfg0.N) :
    (dats m 0 c).leavesExact 2 t = owns (c : Thread nD τ) (ms2 t) fullShare ((dats m 0 c).after 2 t) := by
  unfold Dat.leavesExact; rw [live2 t]
theorem leaves3 (c : Dev nD) (t : Fin cfg0.N) :
    (dats m 0 c).leavesExact 3 t = owns (c : Thread nD τ) (ms3 t) fullShare ((dats m 0 c).after 3 t) := by
  unfold Dat.leavesExact; rw [live3 t]
theorem leaves4 (c : Dev nD) (t : Fin cfg0.N) :
    (dats m 0 c).leavesExact 4 t = owns (c : Thread nD τ) (ms4 t) fullShare ((dats m 0 c).after 4 t) := by
  unfold Dat.leavesExact; rw [live4 t]
theorem leaves5 (c : Dev nD) (t : Fin cfg0.N) :
    (dats m 0 c).leavesExact 5 t = owns (c : Thread nD τ) (ms5 t) fullShare ((dats m 0 c).after 5 t) := by
  unfold Dat.leavesExact; rw [live5 t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. The inputs' buffers hold their blocks. At a batch's first row tile the scratch may
    hold anything (the support of the previous batch, or at the very first point whatever the launch left), and
    the body leaves this point's support in it; elsewhere the scratch holds the previous point's support, which
    is this point's, and the body leaves it. Either way the output buffer is left at the block computed from
    this point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, after0, after1, after2, after3, after4, after5]
  by_cases h0 : t.val % 8 = 0
  · by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (bodyA c (grid0.coords t) _ _ _ _ _ _ _ _ _ _ _ _ _ _ ((hcond0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (bodyA c (grid0.coords t) _ _ _ _ _ _ _ _ _ _ _ _ _ _ ((hcond0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [PhiS_castSucc m c t, PhiS_pos m c _ _ hz]
    rw [show supp m c ⟨t.val - 1, by omega⟩ = supp m c t from supp_pred m c t h0]
    iintro ⟨⟨HS, Hg⟩, Ho, ⟨%d0, H0⟩, ⟨%d1, H1⟩, ⟨%d2, H2⟩, ⟨%d3, H3⟩, ⟨%d4, H4⟩, ⟨%d5, H5⟩⟩
    iapply (bodyB c (grid0.coords t) _ _ _ _ _ _ _ _ _ _ _ _ _ _ (fun h => h0 ((hcond0 t).mp h)) (iblk m c 0 t) (iblk m c 1 t) (iblk m c 2 t) (iblk m c 3 t) (iblk m c 4 t) (supp m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 (Nat.zero_le _) from rfl, PhiS_zero m c 0 _ rfl]

/-- After the last point the support's name is forgotten again. -/
theorem hout (c : Dev nD) : (dats m 0 c).Φ (Fin.last cfg0.N) ⊢ (Pipeline.ΦA spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

/-- Every weakly fair execution ends, each window's array at what the write-backs make of it. -/
theorem run_main : θ_run defs (onTc (τ := τ) (main (F := F))) (s₀ m ρ) (Pipeline.FramePost cfgs (dats m) 0 (V m)) :=
  run_of m ρ (dats m) (fun c => (body_obligation m c).loose) (fun _ _ => rfl) (fun _ _ => rfl) (A_eq m) (hin m) (hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.ValSpec.lean ====
/-
  The dense graph-convolution layer as one function of its four argument arrays, index by index over the
  extended reals:
      out[i, n, f] = Σ_{k < 4096} adj[i, n, k] · S[i, k, f] + b[f],   S[i, k, f] = Σ_{d < 512} x[i, k, d] · W[d, f],
  and the same with the sum over the 4096 neighbours k taken in two halves, k < 2048 and 2048 ≤ k, which is how a
  kernel that reads the adjacency rows as two column halves computes it. The two agree in any commutative additive
  monoid: a sum over 4096 = 2048 + 2048 indices is the sum over the first 2048 plus the sum over the last 2048.
  No finiteness of the entries is used.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨3, ![4, 4096, 512]⟩
abbrev SA : Shape := ⟨3, ![4, 4096, 4096]⟩
abbrev SW : Shape := ⟨2, ![512, 512]⟩
abbrev SB : Shape := ⟨1, ![512]⟩

/-- The support matrix of batch `i`: row `k` of x times column `f` of W. -/
def support (x : SX.Idx → EReal) (W : SW.Idx → EReal) (i : Fin 4) (k : Fin 4096) (f : Fin 512) : EReal :=
  ∑ d : Fin 512, x (ix3 i k d) * W (ix2 d f)

/-- The layer's output. -/
def layer (x : SX.Idx → EReal) (adj : SA.Idx → EReal) (W : SW.Idx → EReal) (b : SB.Idx → EReal) : SX.Idx → EReal := fun j =>
  (∑ k : Fin 4096, adj (ix3 (j 0) (j 1) k) * support x W (j 0) k (j 2)) + b (ix1 (j 2))

/-- Neighbour `k` of the first half, and of the second half, as a neighbour among all 4096. -/
def loRow (k : Fin 2048) : Fin 4096 := ⟨k.val, by omega⟩
def hiRow (k : Fin 2048) : Fin 4096 := ⟨2048 + k.val, by omega⟩

/-- The layer's output with the neighbours summed in two halves. -/
def layerSplit (x : SX.Idx → EReal) (adj : SA.Idx → EReal) (W : SW.Idx → EReal) (b : SB.Idx → EReal) : SX.Idx → EReal := fun j =>
  ((∑ k : Fin 2048, adj (ix3 (j 0) (j 1) (loRow k)) * support x W (j 0) (loRow k) (j 2))
    + (∑ k : Fin 2048, adj (ix3 (j 0) (j 1) (hiRow k)) * support x W (j 0) (hiRow k) (j 2))) + b (ix1 (j 2))

/-- A sum over 4096 indices is the sum over the first 2048 plus the sum over the last 2048. -/
theorem sum_halves {M : Type*} [AddCommMonoid M] (f : Fin 4096 → M) :
    ∑ k, f k = ∑ k : Fin 2048, f (loRow k) + ∑ k : Fin 2048, f (hiRow k) := by
  have h := Fin.sum_univ_add (a := 2048) (b := 2048) (fun i : Fin (2048 + 2048) => f ⟨i.val, i.isLt⟩)
  have e1 : (∑ k, f k) = ∑ i : Fin (2048 + 2048), f ⟨i.val, i.isLt⟩ := rfl
  rw [e1, h]
  rfl

theorem layerSplit_eq (x : SX.Idx → EReal) (adj : SA.Idx → EReal) (W : SW.Idx → EReal) (b : SB.Idx → EReal) :
    layerSplit x adj W b = layer x adj W b := by
  funext j
  unfold layerSplit layer
  rw [sum_halves (fun k => adj (ix3 (j 0) (j 1) k) * support x W (j 0) k (j 2))]

end Cert.Spec

end
-- ==== Proof.ValRef.lean ====
/-
  The reference program's result, read index by index: the dense graph-convolution layer
  out[i, n, f] = Σ_k adj[i, n, k] · (Σ_d x[i, k, d] · W[d, f]) + b[f].
-/
import proofs.«126129_g71863392796808_cont_9to1_m_899_6_alg».proof.Proof.Gen.ReferenceIdeal.Run
import proofs.«126129_g71863392796808_cont_9to1_m_899_6_alg».proof.Proof.Gen.ReferenceIdeal.Read
import proofs.«126129_g71863392796808_cont_9to1_m_899_6_alg».proof.Proof.ValSpec

noncomputable section

open scoped BigOperators

namespace Cert.ReferenceIdeal.RefValue

open Cert.ReferenceIdeal Cert.ReferenceIdeal.Gen Idealize.ShloMosaic Idealize.ShloMosaic.ValueIdx

/-! ## Where each stage reads its operands

  Each stage of the reference reads its operands at an index computed from the result's index. Written over the
  coordinates, these are the index constructors the layer is stated with: every identification below compares two
  index functions axis by axis, and on each axis both sides are the same coordinate. -/

/-- The outer contraction's left operand, the adjacency, is read at (batch, row, neighbour). -/
theorem lidx_outer (i : S4x4096x512.Idx) (k : Fin 4096) :
    Read.lidx_main_v1 i k = ix3 (i 0) (i 1) k :=
  funext fun a => Fin.ext (by match a with | ⟨0, _⟩ => rfl | ⟨1, _⟩ => rfl | ⟨2, _⟩ => rfl)

/-- The outer contraction's right operand, the support, is read at (batch, neighbour, feature). -/
theorem ridx_outer (i : S4x4096x512.Idx) (k : Fin 4096) :
    Read.ridx_main_v1 i k = ix3 (i 0) k (i 2) :=
  funext fun a => Fin.ext (by match a with | ⟨0, _⟩ => rfl | ⟨1, _⟩ => rfl | ⟨2, _⟩ => rfl)

/-- The inner contraction at (batch, neighbour, feature) reads x at (batch, neighbour, d). -/
theorem lidx_inner (b : Fin 4) (k : Fin 4096) (f : Fin 512) (d : Fin 512) :
    Read.lidx_main_v0 (ix3 b k f) d = ix3 b k d :=
  funext fun a => Fin.ext (by match a with | ⟨0, _⟩ => rfl | ⟨1, _⟩ => rfl | ⟨2, _⟩ => rfl)

/-- The inner contraction at (batch, neighbour, feature) reads W at (d, feature). -/
theorem ridx_inner (b : Fin 4) (k : Fin 4096) (f : Fin 512) (d : Fin 512) :
    Read.ridx_main_v0 (ix3 b k f) d = ix2 d f :=
  funext fun a => Fin.ext (by match a with | ⟨0, _⟩ => rfl | ⟨1, _⟩ => rfl)

/-- The two broadcasts of the bias, composed, read it at the feature coordinate alone: the first drops the batch and
    the row (both have extent one in the intermediate array), the second keeps the only axis left. -/
theorem idx_bias (i : S4x4096x512.Idx) :
    Read.idx_main_v2 (Read.idx_main_v3 i) = ix1 (i 2) :=
  funext fun a => Fin.ext (by match a with | ⟨0, _⟩ => rfl)

/-- The support stage of the reference, read at (batch, neighbour, feature), is the layer's support matrix entry:
    both are the sum over d of x[batch, neighbour, d] · W[d, feature]. -/
theorem support_eq (x0 : Vec Ideal S4x4096x512 .f32) (x2 : Vec Ideal S512x512 .f32)
    (b : Fin 4) (k : Fin 4096) (f : Fin 512) :
    Read.val_main_v0 (F := Ideal) x0 x2 (ix3 b k f) = Cert.Spec.support x0 x2 b k f := by
  rw [Read.val_main_v0_apply]
  unfold Cert.Spec.support
  refine Finset.sum_congr rfl fun d _ => ?_
  rw [lidx_inner, ridx_inner]

/-- The reference's last stage — two contractions, the bias broadcast over batches and rows, and the sum — is the
    layer of its four arguments, at every index. -/
theorem ref_eq_layer (x0 : Vec Ideal S4x4096x512 .f32) (x1 : Vec Ideal S4x4096x4096 .f32) (x2 : Vec Ideal S512x512 .f32) (x3 : Vec Ideal S512 .f32) :
    Cert.ReferenceIdeal.Read.val_main_v4 (F := Ideal) x0 x1 x2 x3 = Cert.Spec.layer x0 x1 x2 x3 := by
  funext i
  -- The last stage is an elementwise sum, and over the extended reals that sum is `+`.
  rw [Read.val_main_v4_apply]
  show Read.val_main_v1 (F := Ideal) x0 x1 x2 i + Read.val_main_v3 (F := Ideal) x3 i = _
  -- The bias term: two broadcasts read back to the bias at the feature coordinate.
  rw [Read.val_main_v3_apply, Read.val_main_v2_apply, idx_bias]
  -- The contraction over the neighbours, term by term.
  rw [Read.val_main_v1_apply]
  unfold Cert.Spec.layer
  congr 1
  refine Finset.sum_congr rfl fun k _ => ?_
  rw [lidx_outer, ridx_outer]
  -- What is left differs only in the second factor, which is the support entry at (batch, neighbour, feature).
  exact congrArg (fun t => x1 (ix3 (i 0) (i 1) k) * t) (support_eq x0 x2 (i 0) k (i 2))

end Cert.ReferenceIdeal.RefValue

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.ValPay.lean ====
/-
  The two payloads of the kernel body read at coordinates, over the extended reals (where a change of float format
  is the identity and a matrix product into a zero accumulator is the plain sum of products): the support
  S[k, f] = Σ_d x[0, k, d] · W[d, f], and the output block
  out[0, r, c] = (Σ_{k<2048} a_lo[0, r, k] · S[k, c] + Σ_{k<2048} a_hi[0, r, k] · S[2048 + k, c]) + b[0, c].
-/
import proofs.«126129_g71863392796808_cont_9to1_m_899_6_alg».proof.Proof.KiBody
import proofs.«126129_g71863392796808_cont_9to1_m_899_6_alg».proof.Proof.ValSpec
import proofs.«126129_g71863392796808_cont_9to1_m_899_6_alg».proof.Proof.LibContraction
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Cert.KernelIdeal.Frm Idealize.ShloMosaic Idealize.ShloMosaic.ValueIdx Cert.Spec

/-- A matrix product of an `m × n` by an `n × p` matrix into the zero accumulator, read at `(r, c)`: the sum over the
    shared extent of the products of row `r`'s entries with column `c`'s. -/
theorem matmul_zero_apply {m n p : Nat} {φ₁ φ₂ : FTy} (d : DotDims ⟨2, ![m, n]⟩ ⟨2, ![n, p]⟩ ⟨2, ![m, p]⟩)
    (hc : d.lhsContracting = [1]) (hc' : d.rhsContracting = [0]) (hn : d.lhsNonContracting = [0])
    (hn' : d.rhsNonContracting = [1]) (hb : d.lhsBatch = []) (hb' : d.rhsBatch = [])
    (prec : Option ContractPrecision) (L : FVec Ideal ⟨2, ![m, n]⟩ φ₁) (R : FVec Ideal ⟨2, ![n, p]⟩ φ₂)
    (r : Fin m) (c : Fin p) :
    matmul (F := Ideal) d prec L R (constant (F := Ideal) ⟨2, ![m, p]⟩ .f32 0x00000000#32) (ix2 r c)
      = ∑ k : Fin n, L (ix2 r k) * R (ix2 k c) := by
  refine (Ideal.matmul_constant_zero_apply d prec L R (ix2 r c)).trans ?_
  refine (Cert.Lib.Contraction.sum_contr d hc n rfl _).trans ?_
  refine Finset.sum_congr rfl fun k _ => ?_
  have el : d.lhsIdx (ix2 r c) ((Cert.Lib.Contraction.contrFin d hc n rfl).symm k) = ix2 r k :=
    funext fun a => Fin.ext (by
      match a with
      | ⟨0, _⟩ => exact Cert.Lib.Contraction.lhs_free d hb hn (ix2 r c) _ Nat.zero_lt_two
      | ⟨1, _⟩ => exact Cert.Lib.Contraction.lhs_contracted d hc n rfl (ix2 r c) k)
  have er : d.rhsIdx (ix2 r c) ((Cert.Lib.Contraction.contrFin d hc n rfl).symm k) = ix2 k c :=
    funext fun a => Fin.ext (by
      match a with
      | ⟨0, _⟩ => exact Cert.Lib.Contraction.rhs_contracted d hc hc' n rfl (ix2 r c) k
      | ⟨1, _⟩ => exact Cert.Lib.Contraction.rhs_free d hb hb' hn hn' (ix2 r c) _ Nat.one_lt_two)
  rw [el, er]

/-- Row `k` of the first half of the rows is row `k` of the whole matrix. -/
theorem slabLo_apply (xs : Vec Ideal S4096x512 .bf16) (k : Fin 2048) (c : Fin 512) :
    slabLo (F := Ideal) xs (ix2 k c) = xs (ix2 (loRow k) c) := by
  refine congrArg xs (funext fun a => Fin.ext ?_)
  match a with
  | ⟨0, _⟩ => show 0 + 1 * k.val = k.val; omega
  | ⟨1, _⟩ => show 0 + 1 * c.val = c.val; omega

/-- Row `k` of the second half of the rows is row `2048 + k` of the whole matrix. -/
theorem slabHi_apply (xs : Vec Ideal S4096x512 .bf16) (k : Fin 2048) (c : Fin 512) :
    slabHi (F := Ideal) xs (ix2 k c) = xs (ix2 (hiRow k) c) := by
  refine congrArg xs (funext fun a => Fin.ext ?_)
  match a with
  | ⟨0, _⟩ => show 2048 + 1 * k.val = 2048 + k.val; omega
  | ⟨1, _⟩ => show 0 + 1 * c.val = c.val; omega

/-- The support payload at row `k`, column `f`. -/
theorem pay1_apply (x0 : Vec Ideal S1x4096x512 .f32) (x3 : Vec Ideal S512x512 .f32) (k : Fin 4096) (f : Fin 512) :
    k0_pay1 (F := Ideal) x0 x3 (ix2 k f) = ∑ d : Fin 512, x0 (ix3 0 k d) * x3 (ix2 d f) := by
  unfold k0_pay1
  refine (congrFun (shapeCast_self _ _) (ix2 k f)).trans ?_
  refine (matmul_zero_apply (φ₁ := .bf16) (φ₂ := .bf16) dot_S4096x512_S512x512_S4096x512_1_0_0_1_n_n rfl rfl rfl rfl rfl rfl none _ _ k f).trans ?_
  refine Finset.sum_congr rfl fun d _ => ?_
  exact congrArg (· * x3 (ix2 d f)) (shapeCast_1ab_ab_apply x0 _ k d)

/-- The output block at row `r`, column `c`: the two half products over the scratch's row halves, then the bias. -/
theorem outBlk_apply (x1 x2 : Vec Ideal S1x512x2048 .f32) (xs : Vec Ideal S4096x512 .bf16) (x4 : Vec Ideal S1x512 .f32) (r c : Fin 512) :
    outBlk (F := Ideal) x1 x2 xs x4 (ix3 0 r c)
      = ((∑ k : Fin 2048, x1 (ix3 0 r k) * xs (ix2 (loRow k) c)) + (∑ k : Fin 2048, x2 (ix3 0 r k) * xs (ix2 (hiRow k) c)))
        + x4 (ix2 0 c) := by
  show k0_pay2 (F := Ideal) x1 x2 (slabLo xs) (slabHi xs) x4 (ix3 0 r c) = _
  unfold k0_pay2
  refine (shapeCast_ab_1ab_apply _ _ 0 r c).trans ?_
  refine (addf_apply _ _ _).trans ?_
  refine congrArg₂ (· + ·) ((addf_apply _ _ _).trans (congrArg₂ (· + ·) ?_ ?_)) ?_
  · refine (matmul_zero_apply (φ₁ := .bf16) (φ₂ := .bf16) dot_S512x2048_S2048x512_S512x512_1_0_0_1_n_n rfl rfl rfl rfl rfl rfl none _ _ r c).trans ?_
    refine Finset.sum_congr rfl fun k _ => ?_
    exact congrArg₂ (· * ·) (shapeCast_1ab_ab_apply x1 _ r k) (slabLo_apply xs k c)
  · refine (matmul_zero_apply (φ₁ := .bf16) (φ₂ := .bf16) dot_S512x2048_S2048x512_S512x512_1_0_0_1_n_n rfl rfl rfl rfl rfl rfl none _ _ r c).trans ?_
    refine Finset.sum_congr rfl fun k _ => ?_
    exact congrArg₂ (· * ·) (shapeCast_1ab_ab_apply x2 _ r k) (slabHi_apply xs k c)
  · refine (broadcastTo_1b_ab_apply _ _ r c).trans ?_
    exact congrFun (shapeCast_self x4 _) (ix2 0 c)

end Cert.KernelIdeal.Pay

end
-- ==== Proof.ValKernel.lean ====
/-
  From the output blocks to the output array. Grid point t = 8·i + j writes back rows 512·j … 512·j + 511 of batch
  i; the block it writes is the body's output block computed from the point's input blocks (the x block of batch
  i, the two column halves of rows 512·j … of adj[i], W, and the bias row), which at each entry is the layer's
  two-half sum at the corresponding array index. The 32 blocks tile the array, so the array after the run is the
  layer's two-half form of the four argument arrays.
-/
import proofs.«126129_g71863392796808_cont_9to1_m_899_6_alg».proof.Proof.KiFrame
import proofs.«126129_g71863392796808_cont_9to1_m_899_6_alg».proof.Proof.ValPay
import proofs.«126129_g71863392796808_cont_9to1_m_899_6_alg».proof.Proof.ValSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Frm Cert.Spec

variable (m : (ℓ : Loc nD τ sig) → Buf (Elt Ideal) ℓ)

/-! ## The block indices over the grid -/

/-- The printed index maps, decided over the 32 points: at point t = 8·i + j the x window sits at batch i, the two
    adjacency windows at batch i, row tile j and column halves 0 and 1, the W and bias windows at their one block,
    and the output window at batch i, row tile j. -/
theorem block_indices : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 1)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = t.val % 8 ∧ win0_5.index t (2 : Fin 3) = 0) :=
  (by decide +kernel : ∀ t : Fin grid0.N, _)

/-! ## The input blocks as entries of the argument arrays -/

/-- The x block at point t is batch t / 8 of x. -/
theorem xblk_apply (c : Dev nD) (t : Fin cfg0.N) (y : S1x4096x512.Idx) (i : S4x4096x512.Idx)
    (h0 : (i 0).val = t.val / 8) (h1 : (i 1).val = (y 1).val) (h2 : (i 2).val = (y 2).val) :
    (iblk (F := Ideal) m c 0 t : S1x4096x512.Idx → EReal) y
      = (m ((c.tc : Thread nD τ).loc main_arg0) : S4x4096x512.Idx → EReal) i := by
  obtain ⟨⟨e0, e1, e2⟩, -⟩ := block_indices t
  unfold iblk
  rw [View.read_apply]
  show V m c main_arg0 (((cfg0.win 0).blk t).view.emb y) = _
  rw [V_main_arg0]
  congr 1
  funext a
  apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 4096 + 1 * (y 1).val = (i 1).val; omega
  | ⟨2, _⟩ => show win0_0.index t (2 : Fin 3) * 512 + 1 * (y 2).val = (i 2).val; omega

/-- The left adjacency block at point t is rows 512·(t % 8) … and columns 0 … 2047 of batch t / 8 of adj. -/
theorem adjLo_apply (c : Dev nD) (t : Fin cfg0.N) (y : S1x512x2048.Idx) (i : S4x4096x4096.Idx)
    (h0 : (i 0).val = t.val / 8) (h1 : (i 1).val = 512 * (t.val % 8) + (y 1).val) (h2 : (i 2).val = (y 2).val) :
    (iblk (F := Ideal) m c 1 t : S1x512x2048.Idx → EReal) y
      = (m ((c.tc : Thread nD τ).loc main_arg1) : S4x4096x4096.Idx → EReal) i := by
  obtain ⟨-, ⟨e0, e1, e2⟩, -⟩ := block_indices t
  unfold iblk
  rw [View.read_apply]
  show V m c main_arg1 (((cfg0.win 1).blk t).view.emb y) = _
  rw [V_main_arg1]
  congr 1
  funext a
  apply Fin.ext
  match a with
  | ⟨0, _⟩ => show win0_1.index t (0 : Fin 3) * 1 + 1 * (y 0).val = (i 0).val; have hy : (y 0).val < 1 := (y 0).isLt; omega
  | ⟨1, _⟩ => show win0_1.index t (1 : Fin 3) * 512 + 1 * (y 1).val = (i 1).val; omega
  | ⟨2, _⟩ => show win0_1.index t (2 : Fin 3) * 2048 + 1 * (y 2).val = (i 2).val; omega

/-- The right adjacency block at point t is the same rows and columns 2048 … 4095 of the same array. -/
theorem adjHi_apply (c : Dev nD) (t : Fin cfg0.N) (y : S1x512x2048.Idx) (i : S4x4096x4096.Idx)
    (h0 : (i 0).val = t.val / 8) (h1 : (i 1).val = 512 * (t.val % 8) + (y 1).val) (h2 : (i 2).val = 2048 + (y 2).val) :
    (iblk (F := Ideal) m c 2 t : S1x512x2048.Idx → EReal) y
      = (m ((c.tc : Thread nD τ).loc main_arg1) : S4x4096x4096.Idx → EReal) i := by
  obtain ⟨-, -, ⟨e0, e1, e2⟩, -⟩ := block_indices t
  unfold iblk
  rw [View.read_apply]
  show V m c main_arg1 (((cfg0.win 2).blk t).view.emb y) = _
  rw [V_main_arg1]
  congr 1
  funext a
  apply Fin.ext
  match a with
  | ⟨0, _⟩ => show win0_2.index t (0 : Fin 3) * 1 + 1 * (y 0).val = (i 0).val; have hy : (y 0).val < 1 := (y 0).isLt; omega
  | ⟨1, _⟩ => show win0_2.index t (1 : Fin 3) * 512 + 1 * (y 1).val = (i 1).val; omega
  | ⟨2, _⟩ => show win0_2.index t (2 : Fin 3) * 2048 + 1 * (y 2).val = (i 2).val; omega

/-- The W block at any point is W. -/
theorem wblk_apply (c : Dev nD) (t : Fin cfg0.N) (y : S512x512.Idx) :
    (iblk (F := Ideal) m c 3 t : S512x512.Idx → EReal) y
      = (m ((c.tc : Thread nD τ).loc main_arg2) : S512x512.Idx → EReal) y := by
  obtain ⟨-, -, -, ⟨e0, e1⟩, -⟩ := block_indices t
  unfold iblk
  rw [View.read_apply]
  show V m c main_arg2 (((cfg0.win 3).blk t).view.emb y) = _
  rw [V_main_arg2]
  congr 1
  funext a
  apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The bias row as the region finds it is the bias vector laid out as one row. -/
theorem biasRow_eq (c : Dev nD) :
    (V m c main_v0 : S1x512.Idx → EReal)
      = shapeCast S1x512 (m ((c.tc : Thread nD τ).loc main_arg3) : S512.Idx → EReal) Facts₀.shapeCasts_S512_S1x512 := by
  dsimp only [V, hostOps0]
  after_results
  rfl

/-- The bias block at any point is the bias vector. -/
theorem bblk_apply (c : Dev nD) (t : Fin cfg0.N) (f : Fin 512) :
    (iblk (F := Ideal) m c 4 t : S1x512.Idx → EReal) (ix2 0 f)
      = (m ((c.tc : Thread nD τ).loc main_arg3) : S512.Idx → EReal) (ix1 f) := by
  obtain ⟨-, -, -, -, ⟨e0, e1⟩, -⟩ := block_indices t
  unfold iblk
  rw [View.read_apply]
  show V m c main_v0 (((cfg0.win 4).blk t).view.emb (ix2 0 f)) = _
  have he : ((cfg0.win 4).blk t).view.emb (ix2 (0 : Fin 1) f) = (ix2 (0 : Fin 1) f : S1x512.Idx) := by
    funext a
    apply Fin.ext
    match a with
    | ⟨0, _⟩ => show win0_4.index t (0 : Fin 2) * 1 + 1 * 0 = 0; omega
    | ⟨1, _⟩ => show win0_4.index t (1 : Fin 2) * 512 + 1 * f.val = f.val; omega
  rw [he, biasRow_eq]
  refine shapeCast_apply _ _ _ (ix1 f) ?_
  rw [Shape.rowMajor_val_two, Shape.rowMajor_val_one]
  show f.val = 0 * 512 + f.val
  omega

/-! ## What a point writes back -/

/-- One entry of the body's output block, over any blocks that read the arrays where the output's rectangle says:
    the x block batch p of x, row r of the two adjacency blocks the two halves of row n of adj[p], the W block W
    and the bias block's entry q the bias at q. The support the body multiplies by is then batch p's, and the
    entry is the layer's two-half sum at (p, n, q). -/
theorem entry_of (X : SX.Idx → EReal) (A : SA.Idx → EReal) (W : SW.Idx → EReal) (b : SB.Idx → EReal)
    (x0 : Vec Ideal S1x4096x512 .f32) (x1 x2 : Vec Ideal S1x512x2048 .f32) (x3 : Vec Ideal S512x512 .f32)
    (x4 : Vec Ideal S1x512 .f32) (p : Fin 4) (n : Fin 4096) (r q : Fin 512)
    (hx0 : ∀ (k : Fin 4096) (d : Fin 512), x0 (ix3 0 k d) = X (ix3 p k d))
    (hx1 : ∀ k : Fin 2048, x1 (ix3 0 r k) = A (ix3 p n (loRow k)))
    (hx2 : ∀ k : Fin 2048, x2 (ix3 0 r k) = A (ix3 p n (hiRow k)))
    (hx3 : ∀ (d f : Fin 512), x3 (ix2 d f) = W (ix2 d f))
    (hx4 : x4 (ix2 0 q) = b (ix1 q)) :
    outBlk (F := Ideal) x1 x2 (k0_pay1 x0 x3) x4 (ix3 0 r q) = layerSplit X A W b (ix3 p n q) := by
  rw [Pay.outBlk_apply]
  show _ = ((∑ k : Fin 2048, A (ix3 p n (loRow k)) * support X W p (loRow k) q)
    + (∑ k : Fin 2048, A (ix3 p n (hiRow k)) * support X W p (hiRow k) q)) + b (ix1 q)
  unfold support
  simp only [Pay.pay1_apply, hx0, hx1, hx2, hx3, hx4]

/-- What point t writes back is block t of the layer's two-half form of the four argument arrays. -/
theorem flushed_eq (c : Dev nD) (t : Fin cfg0.N) :
    (dats (F := Ideal) m 0 c).flushed 5 t
      = ((cfg0.win 5).blk t).view.read (Elt Ideal)
          (layerSplit (m ((c.tc : Thread nD τ).loc main_arg0)) (m ((c.tc : Thread nD τ).loc main_arg1))
            (m ((c.tc : Thread nD τ).loc main_arg2)) (m ((c.tc : Thread nD τ).loc main_arg3))) := by
  show (cfg0.win 5).cut (grid0.coords t) ((dats m 0 c).after 5 t) = _
  rw [after5]
  have hN : cfg0.N = 32 := N_0
  have ht : t.val < 32 := hN ▸ t.isLt
  obtain ⟨-, -, -, -, -, ⟨e0, e1, e2⟩⟩ := block_indices t
  funext y
  obtain ⟨r, q, rfl⟩ : ∃ (r q : Fin 512), y = (ix3 (0 : Fin 1) r q : S1x512x512.Idx) :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  have hemb : ((cfg0.win 5).blk t).view.emb (ix3 (0 : Fin 1) r q)
      = (ix3 (⟨t.val / 8, by omega⟩ : Fin 4) (⟨512 * (t.val % 8) + r.val, by omega⟩ : Fin 4096) q : S4x4096x512.Idx) := by
    funext a
    apply Fin.ext
    match a with
    | ⟨0, _⟩ => show win0_5.index t (0 : Fin 3) * 1 + 1 * 0 = t.val / 8; omega
    | ⟨1, _⟩ => show win0_5.index t (1 : Fin 3) * 512 + 1 * r.val = 512 * (t.val % 8) + r.val; omega
    | ⟨2, _⟩ => show win0_5.index t (2 : Fin 3) * 512 + 1 * q.val = q.val; omega
  show outBlk (F := Ideal) (iblk m c 1 t) (iblk m c 2 t) (supp m c t) (iblk m c 4 t) (ix3 0 r q)
    = layerSplit (m ((c.tc : Thread nD τ).loc main_arg0)) (m ((c.tc : Thread nD τ).loc main_arg1))
        (m ((c.tc : Thread nD τ).loc main_arg2)) (m ((c.tc : Thread nD τ).loc main_arg3))
        (((cfg0.win 5).blk t).view.emb (ix3 (0 : Fin 1) r q))
  rw [hemb]
  unfold supp
  refine entry_of _ _ _ _ _ _ _ _ _ _ _ r q ?_ ?_ ?_ ?_ ?_
  · intro k d
    exact xblk_apply m c t _ _ rfl rfl rfl
  · intro k
    exact adjLo_apply m c t _ _ rfl rfl rfl
  · intro k
    exact adjHi_apply m c t _ _ rfl rfl rfl
  · intro d f
    exact wblk_apply m c t _
  · exact bblk_apply m c t q

/-! ## The blocks tile the array -/

/-- An index of the output array is in point t's block iff each coordinate is in the block's range on its axis. -/
theorem mem_blk (t : Fin cfg0.N) (i : S4x4096x512.Idx) :
    i ∈ ((cfg0.win 5).blk t).view.set
      ↔ ∀ a : Fin 3, win0_5.index t a * S1x512x512.size a ≤ (i a).val
          ∧ (i a).val < win0_5.index t a * S1x512x512.size a + S1x512x512.size a := by
  show i ∈ ((View.whole main_v1).slice (win0_5.rect t)).set ↔ _
  rw [View.set_slice_whole, Rect.mem_set_unit]
  exact Iff.rfl

/-- Every index (p, n, f) of the output array is in the block of the point 8·p + n / 512, which writes back. -/
theorem cover (i : S4x4096x512.Idx) :
    ∃ t : Fin cfg0.N, (cfg0.win 5).flush t = true ∧ i ∈ ((cfg0.win 5).blk t).view.set := by
  have hN : cfg0.N = 32 := N_0
  have h0 : (i 0).val < 4 := (i 0).isLt
  have h1 : (i 1).val < 4096 := (i 1).isLt
  have h2 : (i 2).val < 512 := (i 2).isLt
  have ht : 8 * (i 0).val + (i 1).val / 512 < cfg0.N := by rw [hN]; omega
  refine ⟨⟨8 * (i 0).val + (i 1).val / 512, ht⟩, flush0_5 _, ?_⟩
  obtain ⟨-, -, -, -, -, ⟨e0, e1, e2⟩⟩ := block_indices ⟨8 * (i 0).val + (i 1).val / 512, ht⟩
  have d0 : (8 * (i 0).val + (i 1).val / 512) / 8 = (i 0).val := by omega
  have d1 : (8 * (i 0).val + (i 1).val / 512) % 8 = (i 1).val / 512 := by omega
  rw [mem_blk]
  intro a
  match a with
  | ⟨0, _⟩ =>
    show win0_5.index ⟨8 * (i 0).val + (i 1).val / 512, ht⟩ (0 : Fin 3) * 1 ≤ (i 0).val
      ∧ (i 0).val < win0_5.index ⟨8 * (i 0).val + (i 1).val / 512, ht⟩ (0 : Fin 3) * 1 + 1
    rw [e0]; show (8 * (i 0).val + (i 1).val / 512) / 8 * 1 ≤ _ ∧ _ < (8 * (i 0).val + (i 1).val / 512) / 8 * 1 + 1
    rw [d0]; omega
  | ⟨1, _⟩ =>
    show win0_5.index ⟨8 * (i 0).val + (i 1).val / 512, ht⟩ (1 : Fin 3) * 512 ≤ (i 1).val
      ∧ (i 1).val < win0_5.index ⟨8 * (i 0).val + (i 1).val / 512, ht⟩ (1 : Fin 3) * 512 + 512
    rw [e1]; show (8 * (i 0).val + (i 1).val / 512) % 8 * 512 ≤ _ ∧ _ < (8 * (i 0).val + (i 1).val / 512) % 8 * 512 + 512
    rw [d1]; omega
  | ⟨2, _⟩ =>
    show win0_5.index ⟨8 * (i 0).val + (i 1).val / 512, ht⟩ (2 : Fin 3) * 512 ≤ (i 2).val
      ∧ (i 2).val < win0_5.index ⟨8 * (i 0).val + (i 1).val / 512, ht⟩ (2 : Fin 3) * 512 + 512
    rw [e2]; omega

/-- The output array after the run. -/
theorem final (c : Dev nD) :
    (dats (F := Ideal) m 0 c).arrAt 5 cfg0.N
      = layerSplit (m ((c.tc : Thread nD τ).loc main_arg0)) (m ((c.tc : Thread nD τ).loc main_arg1))
          (m ((c.tc : Thread nD τ).loc main_arg2)) (m ((c.tc : Thread nD τ).loc main_arg3)) := by
  exact (dats (F := Ideal) m 0 c).arrAt_eq_of_cover 5 _ (fun t _ => flushed_eq m c t) cover

end Cert.KernelIdeal.Val

end
-- ==== Proof.lean ====
/-
  The certificate of a fused dense graph-convolution kernel against its jnp reference:
      out[i] = adj[i] · (x[i] · W) + b    for four batches of 4096 nodes, 512 features.
  The kernel runs a 4 × 8 grid; at the first row tile of each batch it computes the batch's support matrix x[i]·W
  into a scratch it keeps for the batch's other seven row tiles, and at every tile it multiplies the tile's 512
  rows of adj[i], read as a left and a right column half (two windows on the one adjacency array), by the upper and
  the lower 2048 rows of the support, adds the two products and the bias row. Over the extended reals, where a
  change of float format is the identity and a matrix product is the plain sum of products, that is the
  reference's sum over all 4096 neighbours taken in two halves: the two programs agree by the splitting of a finite
  sum in a commutative monoid, and no finiteness of the inputs is used.
  The three frames: each kernel program's from the run of its one pipeline (the scratch tracked at the current
  batch's support between grid points), the reference's from its run as a line of host operations. The idealized
  kernel is the kernel's own text read over the extended reals (no rewrite was applied), so that claim is trivial.
-/
import proofs.«126129_g71863392796808_cont_9to1_m_899_6_alg».proof.Defs
import proofs.«126129_g71863392796808_cont_9to1_m_899_6_alg».proof.Proof.Gen.Kernel
import proofs.«126129_g71863392796808_cont_9to1_m_899_6_alg».proof.Proof.Gen.KernelIdeal
import proofs.«126129_g71863392796808_cont_9to1_m_899_6_alg».proof.Proof.Gen.ReferenceIdeal
import proofs.«126129_g71863392796808_cont_9to1_m_899_6_alg».proof.Proof.Gen.Pre_finite_inputs
import proofs.«126129_g71863392796808_cont_9to1_m_899_6_alg».proof.Proof.Gen.ReferenceIdeal.Run
import proofs.«126129_g71863392796808_cont_9to1_m_899_6_alg».proof.Proof.Gen.ReferenceIdeal.Read
import proofs.«126129_g71863392796808_cont_9to1_m_899_6_alg».proof.Proof.KnFrame
import proofs.«126129_g71863392796808_cont_9to1_m_899_6_alg».proof.Proof.KiFrame
import proofs.«126129_g71863392796808_cont_9to1_m_899_6_alg».proof.Proof.ValSpec
import proofs.«126129_g71863392796808_cont_9to1_m_899_6_alg».proof.Proof.ValRef
import proofs.«126129_g71863392796808_cont_9to1_m_899_6_alg».proof.Proof.ValKernel
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ => Cert.Kernel.Frm.frame (F := Bits) m ρ

/-- So does its reading over the extended reals. -/
theorem frame_ki : Cert.frame_KernelIdeal := fun m ρ _ => Cert.KernelIdeal.Frm.frame (F := Ideal) m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the idealized reading. -/
theorem preserves : Cert.preserves_Kernel_KernelIdeal := trivial

/-- Both programs end with the layer of the four argument arrays in their result: the kernel's output array is
    the two-half form, block by block; the reference's last stage is the whole sum. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Frm.run_main (F := Ideal) m ρ)
    exact ⟨((h c).1 5).trans ((Cert.KernelIdeal.Val.final m c).trans (Cert.Spec.layerSplit_eq _ _ _ _)),
      ((h c).1 0).trans (((Cert.KernelIdeal.Frm.dats m 0 c).arrAt_in 0 rfl _).trans ((Cert.KernelIdeal.Frm.A_eq m c 0).trans (Cert.KernelIdeal.Frm.V_main_arg0 m c))),
      ((h c).1 1).trans (((Cert.KernelIdeal.Frm.dats m 0 c).arrAt_in 1 rfl _).trans ((Cert.KernelIdeal.Frm.A_eq m c 1).trans (Cert.KernelIdeal.Frm.V_main_arg1 m c))),
      ((h c).1 3).trans (((Cert.KernelIdeal.Frm.dats m 0 c).arrAt_in 3 rfl _).trans ((Cert.KernelIdeal.Frm.A_eq m c 3).trans (Cert.KernelIdeal.Frm.V_main_arg2 m c))),
      ((h c).2 Cert.KernelIdeal.main_arg3 (Pipeline.mem_restRefs_of Cert.KernelIdeal.main_arg3 (by decide) (by decide))).trans (Cert.KernelIdeal.Frm.V_main_arg3 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
